-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x1024x384 : Shape := ⟨4, ![32, 4, 1024, 384]⟩
abbrev S384x769 : Shape := ⟨2, ![384, 769]⟩
abbrev S769 : Shape := ⟨1, ![769]⟩
abbrev S384x384 : Shape := ⟨2, ![384, 384]⟩
abbrev S384 : Shape := ⟨1, ![384]⟩
abbrev S_ : Shape := ⟨0, ![]⟩

class Facts : Prop where
  bcast_S_S32x4x1024x384 : S_.BroadcastsInDim S32x4x1024x384 (![] : Fin 0 → Fin S32x4x1024x384.rank)
  reducesTo_S32x4x1024x384_S_d0_1_2_3 : S32x4x1024x384.ReducesTo [0, 1, 2, 3] S_
  h_S_ : 0 < S_.numel
  bcast_S_S384x769 : S_.BroadcastsInDim S384x769 (![] : Fin 0 → Fin S384x769.rank)
  reducesTo_S384x769_S_d0_1 : S384x769.ReducesTo [0, 1] S_
  bcast_S_S769 : S_.BroadcastsInDim S769 (![] : Fin 0 → Fin S769.rank)
  reducesTo_S769_S_d0 : S769.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S32x4x1024x384 .f32) (main_arg1 : FVec F S384x769 .f32) (main_arg2 : FVec F S769 .f32) (main_arg3 : FVec F S384x384 .f32) (main_arg4 : FVec F S384 .f32) : IVec S_ 1 :=
  let main_v0 : FVec F S32x4x1024x384 .f32 := Host.absf main_arg0
  let main_cst : FVec F S_ .f32 := constant S_ .f32 0x7F800000#32
  let main_v1 : FVec F S32x4x1024x384 .f32 := broadcastInDim S32x4x1024x384 ![] bcast_S_S32x4x1024x384 main_cst
  let main_v2 : IVec S32x4x1024x384 1 := cmpf .olt main_v0 main_v1
  let main_c : IVec S_ 1 := constantI S_ 1 1#1
  let main_v3 : IVec S_ 1 := (fun x v => Host.reduce IntOp.andi x v reducesTo_S32x4x1024x384_S_d0_1_2_3 h_S_) main_v2 main_c
  let main_v4 : FVec F S384x769 .f32 := Host.absf main_arg1
  let main_cst_0 : FVec F S_ .f32 := constant S_ .f32 0x7F800000#32
  let main_v5 : FVec F S384x769 .f32 := broadcastInDim S384x769 ![] bcast_S_S384x769 main_cst_0
  let main_v6 : IVec S384x769 1 := cmpf .olt main_v4 main_v5
  let main_c_1 : IVec S_ 1 := constantI S_ 1 1#1
  let main_v7 : IVec S_ 1 := (fun x v => Host.reduce IntOp.andi x v reducesTo_S384x769_S_d0_1 h_S_) main_v6 main_c_1
  let main_v8 : IVec S_ 1 := andi main_v3 main_v7
  let main_v9 : FVec F S769 .f32 := Host.absf main_arg2
  let main_cst_2 : FVec F S_ .f32 := constant S_ .f32 0x7F800000#32
  let main_v10 : FVec F S769 .f32 := broadcastInDim S769 ![] bcast_S_S769 main_cst_2
  let main_v11 : IVec S769 1 := cmpf .olt main_v9 main_v10
  let main_c_3 : IVec S_ 1 := constantI S_ 1 1#1
  let main_v12 : IVec S_ 1 := (fun x v => Host.reduce IntOp.andi x v reducesTo_S769_S_d0 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_v13 main_v16
-- ==== Kernel.lean ====
abbrev S32x4x1024x384 : Shape := ⟨4, ![32, 4, 1024, 384]⟩
abbrev S384x769 : Shape := ⟨2, ![384, 769]⟩
abbrev S769 : Shape := ⟨1, ![769]⟩
abbrev S384x384 : Shape := ⟨2, ![384, 384]⟩
abbrev S384 : Shape := ⟨1, ![384]⟩
abbrev S384x768 : Shape := ⟨2, ![384, 768]⟩
abbrev S768 : Shape := ⟨1, ![768]⟩
abbrev S128x1024x384 : Shape := ⟨3, ![128, 1024, 384]⟩
abbrev S1x1024x384 : Shape := ⟨3, ![1, 1024, 384]⟩
abbrev S1024x384 : Shape := ⟨2, ![1024, 384]⟩
abbrev S1024x768 : Shape := ⟨2, ![1024, 768]⟩
abbrev S1x768 : Shape := ⟨2, ![1, 768]⟩
abbrev S1x384 : Shape := ⟨2, ![1, 384]⟩

abbrev nBuf : Space → Nat
  | .hbm => 10
  | .vmem => 8
  | .smem => 0
  | _ => 0

abbrev bufTy : (tb : Table) → Fin (tcTables nBuf tb) → BufTy
  | .hbm, ⟨0, _⟩ => ⟨S32x4x1024x384, .f32⟩
  | .hbm, ⟨1, _⟩ => ⟨S384x769, .f32⟩
  | .hbm, ⟨2, _⟩ => ⟨S769, .f32⟩
  | .hbm, ⟨3, _⟩ => ⟨S384x384, .f32⟩
  | .hbm, ⟨4, _⟩ => ⟨S384, .f32⟩
  | .hbm, ⟨5, _⟩ => ⟨S384x768, .f32⟩
  | .hbm, ⟨6, _⟩ => ⟨S768, .f32⟩
  | .hbm, ⟨7, _⟩ => ⟨S128x1024x384, .f32⟩
  | .hbm, ⟨8, _⟩ => ⟨S128x1024x384, .f32⟩
  | .hbm, ⟨9, _⟩ => ⟨S32x4x1024x384, .f32⟩
  | .local _ .vmem, ⟨0, _⟩ => ⟨S1x1024x384, .f32⟩
  | .local _ .vmem, ⟨1, _⟩ => ⟨S1x1024x384, .f32⟩
  | .local _ .vmem, ⟨2, _⟩ => ⟨S384x768, .f32⟩
  | .local _ .vmem, ⟨3, _⟩ => ⟨S768, .f32⟩
  | .local _ .vmem, ⟨4, _⟩ => ⟨S384x384, .f32⟩
  | .local _ .vmem, ⟨5, _⟩ => ⟨S384, .f32⟩
  | .local _ .vmem, ⟨6, _⟩ => ⟨S1x1024x384, .f32⟩
  | .local _ .vmem, ⟨7, _⟩ => ⟨S1x1024x384, .f32⟩
  | _, _ => ⟨S32x4x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S384x769_S384x768_0_1 : S384x769.Slices ![0, 1] S384x768
  slices_S769_S768_1 : S769.Slices ![1] S768
  shapeCasts_S32x4x1024x384_S128x1024x384 : S32x4x1024x384.ShapeCasts S128x1024x384
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  bitsLt_bf16_f32 : FTy.bits .bf16 < FTy.bits .f32
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S768_S768_0 : ∀ a, (![0] : Fin 1 → Nat) a + S768.size a ≤ S768.size a
  h_S768 : 0 < S768.numel
  shapeCasts_S768_S768 : S768.ShapeCasts S768
  shapeCasts_S768_S1x768 : S768.ShapeCasts S1x768
  broadcasts_S1x768_S1024x768 : S1x768.Broadcasts S1024x768
  slices_S1024x768_o0_0_S1024x384 : S1024x768.Slices ![0, 0] S1024x384
  slices_S1024x768_o0_384_S1024x384 : S1024x768.Slices ![0, 384] S1024x384
  reduces_S1024x384_S384 : S1024x384.Reduces [0] S384
  shapeCasts_S384_S1x384 : S384.ShapeCasts S1x384
  broadcasts_S1x384_S1024x384 : S1x384.Broadcasts S1024x384
  inb_S384x384_S384x384_0_0 : ∀ a, (![0, 0] : Fin 2 → Nat) a + S384x384.size a ≤ S384x384.size a
  h_S384x384 : 0 < S384x384.numel
  inb_S384_S384_0 : ∀ a, (![0] : Fin 1 → Nat) a + S384.size a ≤ S384.size a
  h_S384 : 0 < S384.numel
  shapeCasts_S1024x384_S1x1024x384 : S1024x384.ShapeCasts S1x1024x384
  shapeCasts_S128x1024x384_S32x4x1024x384 : S128x1024x384.ShapeCasts S32x4x1024x384
  dot_S1024x384_S384x768_S1024x768_1_0_0_1_n_n_wf : DotDims.WF S1024x384 S384x768 S1024x768 [1] [0] [0] [1] [] []
  dot_S1024x384_S384x384_S1024x384_1_0_0_1_n_n_wf : DotDims.WF S1024x384 S384x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x384.size a ≤ S128x1024x384.size a
  hwx0_0 : ∀ i : grid0.Coords, EltTy.bits .f32 = 32 ∨ (Rect.block (s := S128x1024x384) S1x1024x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x768.size a ≤ S384x768.size a
  hwx0_1 : ∀ i : grid0.Coords, EltTy.bits .f32 = 32 ∨ (Rect.block (s := S384x768) S384x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x384.size a ≤ S128x1024x384.size a
  hwx0_5 : ∀ i : grid0.Coords, EltTy.bits .f32 = 32 ∨ (Rect.block (s := S128x1024x384) S1x1024x384.size (cc0_transform_5 i) (hinb0_5 i)).WholeWords (EltTy.packing .f32)

variable [Facts₀]

def dot_S1024x384_S384x768_S1024x768_1_0_0_1_n_n : DotDims S1024x384 S384x768 S1024x768 where
  lhsContracting := [1]
  rhsContracting := [0]
  lhsNonContracting := [0]
  rhsNonContracting := [1]
  lhsBatch := []
  rhsBatch := []
  wf := dot_S1024x384_S384x768_S1024x768_1_0_0_1_n_n_wf
def dot_S1024x384_S384x384_S1024x384_1_0_0_1_n_n : DotDims S1024x384 S384x384 S1024x384 where
  lhsContracting := [1]
  rhsContracting := [0]
  lhsNonContracting := [0]
  rhsNonContracting := [1]
  lhsBatch := []
  rhsBatch := []
  wf := dot_S1024x384_S384x384_S1024x384_1_0_0_1_n_n_wf

abbrev win0_0 : Pipeline.Window sig grid0 :=
  Pipeline.Window.ofSpec (Memref.whole main_v2) S1x1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4x1024x384 : Shape := ⟨4, ![32, 4, 1024, 384]⟩
abbrev S384x769 : Shape := ⟨2, ![384, 769]⟩
abbrev S769 : Shape := ⟨1, ![769]⟩
abbrev S384x384 : Shape := ⟨2, ![384, 384]⟩
abbrev S384 : Shape := ⟨1, ![384]⟩
abbrev S32x4x1024x769 : Shape := ⟨4, ![32, 4, 1024, 769]⟩
abbrev S1x1x1x769 : Shape := ⟨4, ![1, 1, 1, 769]⟩
abbrev S32x4x1024x1 : Shape := ⟨4, ![32, 4, 1024, 1]⟩
abbrev S_ : Shape := ⟨0, ![]⟩
abbrev S32x4x1024 : Shape := ⟨3, ![32, 4, 1024]⟩
abbrev S32x4x384 : Shape := ⟨3, ![32, 4, 384]⟩
abbrev S32x4x1x384 : Shape := ⟨4, ![32, 4, 1, 384]⟩
abbrev S1x1x1x384 : Shape := ⟨4, ![1, 1, 1, 384]⟩

abbrev nBuf : Space → Nat
  | .hbm => 38
  | .vmem => 0
  | .smem => 0
  | _ => 0

abbrev bufTy : (tb : Table) → Fin (tcTables nBuf tb) → BufTy
  | .hbm, ⟨0, _⟩ => ⟨S32x4x1024x384, .f32⟩
  | .hbm, ⟨1, _⟩ => ⟨S384x769, .f32⟩
  | .hbm, ⟨2, _⟩ => ⟨S769, .f32⟩
  | .hbm, ⟨3, _⟩ => ⟨S384x384, .f32⟩
  | .hbm, ⟨4, _⟩ => ⟨S384, .f32⟩
  | .hbm, ⟨5, _⟩ => ⟨S32x4x1024x769, .f32⟩
  | .hbm, ⟨6, _⟩ => ⟨S1x1x1x769, .f32⟩
  | .hbm, ⟨7, _⟩ => ⟨S32x4x1024x769, .f32⟩
  | .hbm, ⟨8, _⟩ => ⟨S32x4x1024x769, .f32⟩
  | .hbm, ⟨9, _⟩ => ⟨S32x4x1024x1, .f32⟩
  | .hbm, ⟨10, _⟩ => ⟨S32x4x1024x384, .f32⟩
  | .hbm, ⟨11, _⟩ => ⟨S32x4x1024x384, .f32⟩
  | .hbm, ⟨12, _⟩ => ⟨S_, .f32⟩
  | .hbm, ⟨13, _⟩ => ⟨S32x4x1024, .f32⟩
  | .hbm, ⟨14, _⟩ => ⟨S_, .f32⟩
  | .hbm, ⟨15, _⟩ => ⟨S32x4x1024, .f32⟩
  | .hbm, ⟨16, _⟩ => ⟨S32x4x1024, .f32⟩
  | .hbm, ⟨17, _⟩ => ⟨S32x4x1024x1, .f32⟩
  | .hbm, ⟨18, _⟩ => ⟨S32x4x1024x1, .f32⟩
  | .hbm, ⟨19, _⟩ => ⟨S32x4x1024x1, .f32⟩
  | .hbm, ⟨20, _⟩ => ⟨S_, .f32⟩
  | .hbm, ⟨21, _⟩ => ⟨S32x4x1024, .f32⟩
  | .hbm, ⟨22, _⟩ => ⟨S32x4x1024x1, .f32⟩
  | .hbm, ⟨23, _⟩ => ⟨S32x4x1024x1, .f32⟩
  | .hbm, ⟨24, _⟩ => ⟨S32x4x1024x384, .f32⟩
  | .hbm, ⟨25, _⟩ => ⟨S32x4x1024x384, .f32⟩
  | .hbm, ⟨26, _⟩ => ⟨S_, .f32⟩
  | .hbm, ⟨27, _⟩ => ⟨S32x4x384, .f32⟩
  | .hbm, ⟨28, _⟩ => ⟨S32x4x1x384, .f32⟩
  | .hbm, ⟨29, _⟩ => ⟨S_, .f32⟩
  | .hbm, ⟨30, _⟩ => ⟨S32x4x1024x384, .f32⟩
  | .hbm, ⟨31, _⟩ => ⟨S32x4x1024x384, .f32⟩
  | .hbm, ⟨32, _⟩ => ⟨S32x4x1024x384, .f32⟩
  | .hbm, ⟨33, _⟩ => ⟨S32x4x1024x384, .f32⟩
  | .hbm, ⟨34, _⟩ => ⟨S32x4x1024x384, .f32⟩
  | .hbm, ⟨35, _⟩ => ⟨S1x1x1x384, .f32⟩
  | .hbm, ⟨36, _⟩ => ⟨S32x4x1024x384, .f32⟩
  | .hbm, ⟨37, _⟩ => ⟨S32x4x1024x384, .f32⟩
  | _, _ => ⟨S32x4x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S769_S1x1x1x769_3 : S769.BroadcastsInDim S1x1x1x769 (![3] : Fin 1 → Fin S1x1x1x769.rank)
  bcast_S1x1x1x769_S32x4x1024x769_0_1_2_3 : S1x1x1x769.BroadcastsInDim S32x4x1024x769 (![0, 1, 2, 3] : Fin 4 → Fin S32x4x1024x769.rank)
  slices_S32x4x1024x769_S32x4x1024x1_0_0_0_0 : S32x4x1024x769.Slices ![0, 0, 0, 0] S32x4x1024x1
  slices_S32x4x1024x769_S32x4x1024x384_0_0_0_1 : S32x4x1024x769.Slices ![0, 0, 0, 1] S32x4x1024x384
  slices_S32x4x1024x769_S32x4x1024x384_0_0_0_385 : S32x4x1024x769.Slices ![0, 0, 0, 385] S32x4x1024x384
  reducesTo_S32x4x1024x1_S32x4x1024_d3 : S32x4x1024x1.ReducesTo [3] S32x4x1024
  h_S_ : 0 < S_.numel
  bcast_S_S32x4x1024 : S_.BroadcastsInDim S32x4x1024 (![] : Fin 0 → Fin S32x4x1024.rank)
  bcast_S32x4x1024_S32x4x1024x1_0_1_2 : S32x4x1024.BroadcastsInDim S32x4x1024x1 (![0, 1, 2] : Fin 3 → Fin S32x4x1024x1.rank)
  bcast_S32x4x1024x1_S32x4x1024x384_0_1_2_3 : S32x4x1024x1.BroadcastsInDim S32x4x1024x384 (![0, 1, 2, 3] : Fin 4 → Fin S32x4x1024x384.rank)
  reducesTo_S32x4x1024x384_S32x4x384_d2 : S32x4x1024x384.ReducesTo [2] S32x4x384
  bcast_S32x4x384_S32x4x1x384_0_1_3 : S32x4x384.BroadcastsInDim S32x4x1x384 (![0, 1, 3] : Fin 3 → Fin S32x4x1x384.rank)
  bcast_S_S32x4x1024x384 : S_.BroadcastsInDim S32x4x1024x384 (![] : Fin 0 → Fin S32x4x1024x384.rank)
  bcast_S32x4x1x384_S32x4x1024x384_0_1_2_3 : S32x4x1x384.BroadcastsInDim S32x4x1024x384 (![0, 1, 2, 3] : Fin 4 → Fin S32x4x1024x384.rank)
  bcast_S384_S1x1x1x384_3 : S384.BroadcastsInDim S1x1x1x384 (![3] : Fin 1 → Fin S1x1x1x384.rank)
  bcast_S1x1x1x384_S32x4x1024x384_0_1_2_3 : S1x1x1x384.BroadcastsInDim S32x4x1024x384 (![0, 1, 2, 3] : Fin 4 → Fin S32x4x1024x384.rank)
  dot_S32x4x1024x384_S384x769_S32x4x1024x769_3_0_012_1_n_n_wf : DotDims.WF S32x4x1024x384 S384x769 S32x4x1024x769 [3] [0] [0, 1, 2] [1] [] []
  dot_S32x4x1024x384_S384x384_S32x4x1024x384_3_0_012_1_n_n_wf : DotDims.WF S32x4x1024x384 S384x384 S32x4x1024x384 [3] [0] [0, 1, 2] [1] [] []

variable [Facts₀]

def dot_S32x4x1024x384_S384x769_S32x4x1024x769_3_0_012_1_n_n : DotDims S32x4x1024x384 S384x769 S32x4x1024x769 where
  lhsContracting := [3]
  rhsContracting := [0]
  lhsNonContracting := [0, 1, 2]
  rhsNonContracting := [1]
  lhsBatch := []
  rhsBatch := []
  wf := dot_S32x4x1024x384_S384x769_S32x4x1024x769_3_0_012_1_n_n_wf
def dot_S32x4x1024x384_S384x384_S32x4x1024x384_3_0_012_1_n_n : DotDims S32x4x1024x384 S384x384 S32x4x1024x384 where
  lhsContracting := [3]
  rhsContracting := [0]
  lhsNonContracting := [0, 1, 2]
  rhsNonContracting := [1]
  lhsBatch := []
  rhsBatch := []
  wf := dot_S32x4x1024x384_S384x384_S32x4x1024x384_3_0_012_1_n_n_wf

class Facts : Prop extends Facts₀ where

variable [Facts]
-- ==== Proof.LibAllReal.lean ====
/-
  ARRAYS OF REALS. At the ideal values a float is an extended real; an array is "all real" when no entry is an infinity or
  the junk value. This file states that notion and its closure under the host operations read at the ideal values, for any
  shapes and any dimension records: an operation that only READS its operand somewhere (a gather, a broadcast, a reshape, a
  select) keeps it; sums, differences, products and maxima of reals are reals; a finite sum of reals is a real (a scatter
  with addition, a dot product); a quotient by a nonzero real and the reciprocal square root of a positive real are reals;
  a constant whose f32 pattern has an exponent field that is not all ones is a real.
-/
import Idealize.ShloMosaic.PureOps.Ideal
import Idealize.ShloMosaic.PureOps.Ideal.Laws
import Idealize.ShloMosaic.PureOps.ShapeOps
import Idealize.ShloMosaic.PureOps.Contract
import Mathlib.Data.EReal.Basic
import Mathlib.Data.EReal.Operations
import Mathlib.Data.EReal.Inv
import Mathlib.Algebra.BigOperators.Group.Finset.Defs

noncomputable section

namespace Cert.LibAllReal

open Idealize.ShloMosaic
open scoped BigOperators

/-- Every entry is a real number. -/
def AllReal {S : Shape} (v : S.Idx → EReal) : Prop := ∀ y, ∃ r : ℝ, v y = (r : EReal)

/-! ## Reals among the extended reals -/

/-- A finite sum of reals is a real. -/
theorem real_sum {ι : Type} (s : Finset ι) (f : ι → EReal) (hf : ∀ i ∈ s, ∃ r : ℝ, f i = (r : EReal)) :
    ∃ r : ℝ, ∑ i ∈ s, f i = (r : EReal) :=
  Finset.sum_induction f (fun x => ∃ r : ℝ, x = (r : EReal))
    (by rintro _ _ ⟨a, rfl⟩ ⟨b, rfl⟩; exact ⟨a + b, (EReal.coe_add a b).symm⟩) ⟨0, EReal.coe_zero.symm⟩ hf

/-- An f32 pattern whose exponent field is not all ones denotes a real (a zero, a subnormal or a normal number). -/
theorem ofBits_f32_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  dsimp only
  rw [if_neg h]
  split <;> exact ⟨_, rfl⟩

/-- A quotient of a real by a nonzero real is a real. -/
theorem real_div {x y : EReal} (hx : ∃ r : ℝ, x = (r : EReal)) (hy : ∃ r : ℝ, y = (r : EReal)) (h0 : y ≠ 0) :
    ∃ r : ℝ, Ideal.div x y = (r : EReal) := by
  obtain ⟨p, rfl⟩ := hx
  obtain ⟨q, rfl⟩ := hy
  have hq : q ≠ 0 := fun e => h0 (by rw [e]; rfl)
  exact ⟨p * (1 / q), by rw [Ideal.div_coe hq, EReal.coe_mul]⟩

/-- The reciprocal square root of a positive real is a real. -/
theorem real_rsqrt {x : EReal} (hx : ∃ r : ℝ, x = (r : EReal)) (h0 : 0 < x) : ∃ r : ℝ, Ideal.rsqrt x = (r : EReal) := by
  obtain ⟨p, rfl⟩ := hx
  have hp : 0 < p := EReal.coe_pos.1 h0
  refine ⟨(Real.sqrt p)⁻¹, ?_⟩
  rw [Ideal.rsqrt_coe, if_neg (not_lt.2 hp.le), if_neg hp.ne']

/-! ## Operations that read their operand -/

section Reads
variable {s si t : Shape} {w : Nat}

/-- A gather reads the operand at some index for each result index. -/
theorem AllReal.gather {x : s.Idx → EReal} (hx : AllReal x) (d : GatherDims s si t) (idx : IVec si w) :
    AllReal (Host.gather d x idx) := fun j => hx _

/-- A broadcast reads the operand at the index the result index keeps. -/
theorem AllReal.broadcastInDim {x : s.Idx → EReal} (hx : AllReal x) (dims : Fin s.rank → Fin t.rank)
    (h : s.BroadcastsInDim t dims) : AllReal (broadcastInDim t dims h x) := fun j => hx _

/-- A reshape reads the operand at the index of the same row-major position. -/
theorem AllReal.shapeCast {x : s.Idx → EReal} (hx : AllReal x) (h : s.ShapeCasts t) :
    AllReal (shapeCast t x h) := fun j => hx _

/-- A select takes, entry by entry, one of two reals. -/
theorem AllReal.select {a b : s.Idx → EReal} (ha : AllReal a) (hb : AllReal b) (c : IVec s 1) :
    AllReal (select c a b) := fun j => by
  show ∃ r : ℝ, Scalar.select (c j) (a j) (b j) = (r : EReal)
  unfold Scalar.select
  split
  · exact ha j
  · exact hb j

end Reads

/-! ## Arithmetic, entry by entry -/

section Arith
variable {s : Shape} {φ : FTy}

theorem AllReal.mulf {a b : FVec Ideal s φ} (ha : AllReal a) (hb : AllReal b) : AllReal (mulf a b) := fun j => by
  obtain ⟨p, hp⟩ := ha j
  obtain ⟨q, hq⟩ := hb j
  exact ⟨p * q, by show a j * b j = _; rw [hp, hq, EReal.coe_mul]⟩

theorem AllReal.addf {a b : FVec Ideal s φ} (ha : AllReal a) (hb : AllReal b) : AllReal (addf a b) := fun j => by
  obtain ⟨p, hp⟩ := ha j
  obtain ⟨q, hq⟩ := hb j
  exact ⟨p + q, by show a j + b j = _; rw [hp, hq, EReal.coe_add]⟩

theorem AllReal.subf {a b : FVec Ideal s φ} (ha : AllReal a) (hb : AllReal b) : AllReal (subf a b) := fun j => by
  obtain ⟨p, hp⟩ := ha j
  obtain ⟨q, hq⟩ := hb j
  exact ⟨p - q, by show a j - b j = _; rw [hp, hq, EReal.coe_sub]⟩

theorem AllReal.maximumf {a b : FVec Ideal s φ} (ha : AllReal a) (hb : AllReal b) : AllReal (maximumf a b) := fun j => by
  show ∃ r : ℝ, max (a j) (b j) = (r : EReal)
  rcases max_choice (a j) (b j) with e | e <;> rw [e]
  · exact ha j
  · exact hb j

/-- A quotient by an array of nonzero reals. -/
theorem AllReal.divf_of_ne_zero {a b : FVec Ideal s φ} (ha : AllReal a) (hb : AllReal b) (h0 : ∀ y, b y ≠ 0) :
    AllReal (Host.divf a b) := fun j => real_div (ha j) (hb j) (h0 j)

/-- A quotient by an array of reals that are at least 1. -/
theorem AllReal.divf {a b : FVec Ideal s φ} (ha : AllReal a) (hb : AllReal b) (h1 : ∀ y, (1 : EReal) ≤ b y) :
    AllReal (Host.divf a b) :=
  AllReal.divf_of_ne_zero ha hb fun y e => by
    have h := h1 y
    rw [e] at h
    exact absurd h (by norm_num)

/-- The reciprocal square root of an array of positive reals. -/
theorem AllReal.rsqrt {a : FVec Ideal s φ} (ha : AllReal a) (hpos : ∀ y, (0 : EReal) < a y) :
    AllReal (Host.rsqrt a) := fun j => real_rsqrt (ha j) (hpos j)

end Arith

/-! ## Constants -/

section Constants
variable (S : Shape)

/-- A splat of an f32 pattern whose exponent field is not all ones. -/
theorem AllReal.constant_of_finite (w : BitVec 32) (h : (w.extractLsb' 23 8).toNat ≠ 2 ^ 8 - 1) :
    AllReal (constant (F := Ideal) S .f32 w) := fun _ => ofBits_f32_real w h

/-- 0.0 -/
theorem AllReal.constant_zero : AllReal (constant (F := Ideal) S .f32 0x00000000#32) :=
  AllReal.constant_of_finite S _ (by decide)
/-- 1.0 -/
theorem AllReal.constant_one : AllReal (constant (F := Ideal) S .f32 0x3F800000#32) :=
  AllReal.constant_of_finite S _ (by decide)
/-- 2.0 -/
theorem AllReal.constant_two : AllReal (constant (F := Ideal) S .f32 0x40000000#32) :=
  AllReal.constant_of_finite S _ (by decide)
/-- the small positive number 0x3727C5AC (about 1e-5) -/
theorem AllReal.constant_eps : AllReal (constant (F := Ideal) S .f32 0x3727C5AC#32) :=
  AllReal.constant_of_finite S _ (by decide)

end Constants

/-! ## Finite sums: a scatter with addition, a dot product -/

section Sums

/-- A scatter with addition gives, at each entry, the operand's entry plus a finite sum of update entries. -/
theorem AllReal.scatterAdd {s si u : Shape} {w : Nat} {φ : FTy} {x : FVec Ideal s φ} {upd : FVec Ideal u φ}
    (hx : AllReal x) (hu : AllReal upd) (d : ScatterDims s si u) (idx : IVec si w) :
    AllReal (Host.scatterAdd d x idx upd) := fun i => by
  show ∃ r : ℝ, x i + ∑ j ∈ Finset.univ.filter (fun j => d.resultIdx? j idx = some i), upd j = (r : EReal)
  obtain ⟨p, hp⟩ := hx i
  obtain ⟨q, hq⟩ := real_sum _ upd (fun j _ => hu j)
  exact ⟨p + q, by rw [hp, hq, EReal.coe_add]⟩

/-- A dot product gives, at each entry, a finite sum of products of the operands' entries. -/
theorem AllReal.dotGeneral {sl sr so : Shape} {φ₁ φ₂ : FTy} {l : FVec Ideal sl φ₁} {r : FVec Ideal sr φ₂}
    (hl : AllReal l) (hr : AllReal r) (d : DotDims sl sr so) (prec : Option ContractPrecision) :
    AllReal (Host.dotGeneral d prec l r) := fun j => by
  show ∃ q : ℝ, FloatOps.dotGeneral d prec .single l r j = (q : EReal)
  rw [Ideal.dotGeneral_apply]
  refine real_sum _ _ (fun k _ => ?_)
  obtain ⟨p, hp⟩ := hl (d.lhsIdx j k)
  obtain ⟨q, hq⟩ := hr (d.rhsIdx j k)
  exact ⟨p * q, by rw [hp, hq, EReal.coe_mul]⟩

end Sums

/-! ## Further operations: a transpose, a concatenation, an integer conversion, a sum-reduction, and more arithmetic -/

section More
variable {s t : Shape} {φ : FTy}

/-- A transpose reads the operand at the permuted index. -/
theorem AllReal.transpose {x : s.Idx → EReal} (hx : AllReal x) (perm : List (Fin s.rank)) (h : s.Transposes perm t) :
    AllReal (transpose t perm x h) := fun j => hx _

/-- A concatenation reads, at each index, one of the listed arrays. -/
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := fun j => by
  unfold Idealize.ShloMosaic.concatenate
  dsimp only
  exact hxs _ (List.getElem_mem _) _

/-- A signed integer converted to a float is a real. -/
theorem AllReal.sitofp {w : Nat} (x : IVec s w) : AllReal (sitofp (F := Ideal) φ x) :=
  fun j => ⟨((x j).toInt : ℝ), rfl⟩

theorem AllReal.negf {a : FVec Ideal s φ} (ha : AllReal a) : AllReal (negf a) := fun j => by
  obtain ⟨p, hp⟩ := ha j
  exact ⟨-p, by show -(a j) = _; rw [hp, EReal.coe_neg]⟩

theorem AllReal.hostNegf {a : FVec Ideal s φ} (ha : AllReal a) : AllReal (Host.negf a) := fun j => by
  obtain ⟨p, hp⟩ := ha j
  exact ⟨-p, by show -(a j) = _; rw [hp, EReal.coe_neg]⟩

theorem AllReal.minimumf {a b : FVec Ideal s φ} (ha : AllReal a) (hb : AllReal b) : AllReal (minimumf a b) := fun j => by
  show ∃ r : ℝ, min (a j) (b j) = (r : EReal)
  rcases min_choice (a j) (b j) with e | e <;> rw [e]
  · exact ha j
  · exact hb j

/-- The exponential of a real is a real. -/
theorem AllReal.exp {a : FVec Ideal s φ} (ha : AllReal a) : AllReal (Host.exp a) := fun j => by
  obtain ⟨p, hp⟩ := ha j
  exact ⟨Real.exp p, by show Ideal.exp (a j) = _; rw [hp]; rfl⟩

/-- A sum-reduction gives, at each entry, the initial value plus a finite sum of operand entries. -/
theorem AllReal.reduceAdd {axes : List (Fin s.rank)} {u : Shape} {x : FVec Ideal s φ} {init : u.Idx → Ideal φ}
    (hx : AllReal x) (hi : AllReal init) (h : s.ReducesTo axes t) (hu : 0 < u.numel) :
    AllReal (Host.reduceAdd x init h hu) := fun j => by
  show ∃ r : ℝ, init (Shape.Idx.first hu) + ∑ i ∈ Finset.univ.filter (fun i => h.drop i = j), x i = (r : EReal)
  obtain ⟨p, hp⟩ := hi (Shape.Idx.first hu)
  obtain ⟨q, hq⟩ := real_sum _ x (fun i _ => hx i)
  exact ⟨p + q, by rw [hp, hq, EReal.coe_add]⟩

end More

end Cert.LibAllReal

end
-- ==== Proof.Finite.lean ====
/-
  FINITE INPUTS ARE REAL. The printed precondition asks, for each argument array, that every entry's absolute value be
  below the f32 pattern 0x7F800000, and joins the five answers by "and". Read at the ideal values an entry is an extended
  real, its absolute value is max x (-x), and the pattern denotes +∞: so the precondition says max x (-x) < ⊤ at every
  entry, which excludes both infinities and leaves a real. This file reads that off for the first three arrays.
-/
import proofs.«170638_j78065325572222_1_alg».proof.Pre_finite_inputs
import proofs.«170638_j78065325572222_1_alg».proof.Proof.Gen.Pre_finite_inputs
import proofs.«170638_j78065325572222_1_alg».proof.Proof.LibAllReal
import Idealize.ShloMosaic.Lib.ReduceAll

noncomputable section

namespace Cert.Finite
open Idealize.ShloMosaic Cert.LibAllReal

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) lies below +∞ is neither infinity: it is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The rank-0 shape has one index. -/
instance : Subsingleton Cert.Pre_finite_inputs.S_.Idx := ⟨fun a b => funext fun d => d.elim0⟩

/-- One array's conjunct: if "all |x| < +∞" reduced to 1, every entry of the array is a real. -/
theorem allReal_of_all {S : Shape} (a : FVec Ideal S .f32)
    (hb : Cert.Pre_finite_inputs.S_.BroadcastsInDim S (![] : Fin 0 → Fin S.rank))
    {axes : List (Fin S.rank)} (hr : S.ReducesTo axes Cert.Pre_finite_inputs.S_)
    (hu : 0 < Cert.Pre_finite_inputs.S_.numel) (init : IVec Cert.Pre_finite_inputs.S_ 1)
    (j : Cert.Pre_finite_inputs.S_.Idx)
    (e : Host.reduce IntOp.andi
          (cmpf .olt (Host.absf a)
            (broadcastInDim S ![] hb (constant (F := Ideal) Cert.Pre_finite_inputs.S_ .f32 0x7F800000#32)))
          init hr hu j = 1#1) : AllReal a := fun y => by
  have hy := Host.reduce_andi_all _ init hr hu j e y
  -- the entry of the comparison at y: |a y| < +∞, as a one-bit word
  have hy' : Ideal.cmp .olt (max (a y) (-(a y))) (Ideal.ofBits .f32 0x7F800000#32) = 1#1 := hy
  rw [ofBits_inf] at hy'
  refine real_of_abs_lt_top (a y) ?_
  by_contra hn
  simp [Ideal.cmp, hn] at hy'

theorem allReal_of_pre [Cert.Pre_finite_inputs.Facts]
    (a0 : FVec Ideal Cert.Pre_finite_inputs.S32x4x1024x384 .f32) (a1 : FVec Ideal Cert.Pre_finite_inputs.S384x769 .f32)
    (a2 : FVec Ideal Cert.Pre_finite_inputs.S769 .f32) (a3 : FVec Ideal Cert.Pre_finite_inputs.S384x384 .f32)
    (a4 : FVec Ideal Cert.Pre_finite_inputs.S384 .f32)
    (h : Cert.Pre_finite_inputs.fn (F := Ideal) a0 a1 a2 a3 a4 = fun _ => 1#1) :
    AllReal a0 ∧ AllReal a1 ∧ AllReal a2 := by
  have h0 := congrFun h (fun d => d.elim0)
  unfold Cert.Pre_finite_inputs.fn Cert.Pre_finite_inputs.fn_part1 at h0
  dsimp only at h0
  -- the result is ((((c0 ∧ c1) ∧ c2) ∧ c3) ∧ c4): peel the conjunction from the outside
  obtain ⟨h0123, _⟩ := IntOp.andi_eq_one.1 h0
  obtain ⟨h012, _⟩ := IntOp.andi_eq_one.1 h0123
  obtain ⟨h01, c2⟩ := IntOp.andi_eq_one.1 h012
  obtain ⟨c0, c1⟩ := IntOp.andi_eq_one.1 h01
  exact ⟨allReal_of_all a0 _ _ _ _ _ c0, allReal_of_all a1 _ _ _ _ _ c1, allReal_of_all a2 _ _ _ _ _ c2⟩

end Cert.Finite

end
-- ==== Proof.Spec.lean ====
/-
  The function both programs compute, written once over the five argument arrays.

  A token is addressed by (g, p, n): batch g < 32, patch p < 4, position n < 1024. Its fused projection has 769 columns:
  column j is the dot product of the token's 384 channels with column j of the weight, plus the bias at j. Column 0 is the
  query, columns 1..384 the key, columns 385..768 the value. The context vector of a group (g, p) is, channel by channel,
  the sum over the 1024 positions of the key. The gated activation is max(value, 0) times the context vector, and the
  result is its projection by the second weight plus the second bias.

  The query column does not occur: a softmax over one entry is 1 for every real query, which is what the reference's side
  of the bridge shows.
-/
import Idealize.ShloMosaic.PureOps.Ideal
import Idealize.ShloMosaic.Lib.ValueIdx

noncomputable section

namespace Cert.Spec

open Idealize.ShloMosaic Idealize.ShloMosaic.ValueIdx
open scoped BigOperators

/-- the activations, [32, 4, 1024, 384] -/
abbrev SX : Shape := ⟨4, ![32, 4, 1024, 384]⟩
/-- the fused weight, [384, 769] -/
abbrev SW : Shape := ⟨2, ![384, 769]⟩
/-- the fused bias, [769] -/
abbrev SB : Shape := ⟨1, ![769]⟩
/-- the output weight, [384, 384] -/
abbrev SWp : Shape := ⟨2, ![384, 384]⟩
/-- the output bias, [384] -/
abbrev SBp : Shape := ⟨1, ![384]⟩

/-- The key's column for channel d: column 1 + d of the fused projection. -/
def keyCol (d : Fin 384) : Fin 769 := ⟨1 + d.val, by have := d.isLt; omega⟩
/-- The value's column for channel d: column 385 + d of the fused projection. -/
def valCol (d : Fin 384) : Fin 769 := ⟨385 + d.val, by have := d.isLt; omega⟩

section
variable (x : SX.Idx → EReal) (w : SW.Idx → EReal) (b : SB.Idx → EReal) (wp : SWp.Idx → EReal) (bp : SBp.Idx → EReal)

/-- Column j of token (g, p, n)'s fused projection: the sum over the channels c of x[g,p,n,c] * w[c,j], plus b[j]. -/
def proj (g : Fin 32) (p : Fin 4) (n : Fin 1024) (j : Fin 769) : EReal :=
  (∑ c : Fin 384, x (ix4 g p n c) * w (ix2 c j)) + b (ix1 j)

/-- Channel d of group (g, p)'s context vector: the key's channel d summed over the 1024 positions. -/
def ctx (g : Fin 32) (p : Fin 4) (d : Fin 384) : EReal :=
  ∑ n : Fin 1024, proj x w b g p n (keyCol d)

/-- Channel d of token (g, p, n)'s gated activation: max(value, 0) times the group's context vector. -/
def gated (g : Fin 32) (p : Fin 4) (n : Fin 1024) (d : Fin 384) : EReal :=
  max (proj x w b g p n (valCol d)) 0 * ctx x w b g p d

/-- Channel e of token (g, p, n)'s result: the gated activation projected by the second weight, plus the second bias. -/
def out (g : Fin 32) (p : Fin 4) (n : Fin 1024) (e : Fin 384) : EReal :=
  (∑ d : Fin 384, gated x w b g p n d * wp (ix2 d e)) + bp (ix1 e)

/-- The whole result array. -/
def G : SX.Idx → EReal := fun i => out x w b wp bp (i 0) (i 1) (i 2) (i 3)

theorem G_ix4 (g : Fin 32) (p : Fin 4) (n : Fin 1024) (e : Fin 384) :
    G x w b wp bp (ix4 g p n e) = out x w b wp bp g p n e := rfl

end

/-! ## The softmax of one real entry -/

/-- The f32 pattern of minus infinity is the bottom element. -/
theorem ofBits_neg_inf : Ideal.ofBits .f32 0xFF800000#32 = (⊥ : EReal) := by
  simp [Ideal.ofBits, Ideal.ieee]

/-- For a real q: q minus the maximum of {-inf, q} is 0, its exponential is 1, the sum of that one exponential from 0 is 1,
    and 1 / 1 = 1. Stated with the maximum as the two nested maxima the reference takes. -/
theorem softmax_one (q : ℝ) :
    Ideal.div (Ideal.exp ((q : EReal) - max ⊥ (max (q : EReal) ⊥)))
      (0 + Ideal.exp ((q : EReal) - max ⊥ (max (q : EReal) ⊥))) = 1 := by
  have h1 : max (⊥ : EReal) (max (q : EReal) ⊥) = (q : EReal) := by
    rw [max_eq_left (bot_le : (⊥ : EReal) ≤ (q : EReal)), max_eq_right (bot_le : (⊥ : EReal) ≤ (q : EReal))]
  rw [h1, ← EReal.coe_sub, sub_self, EReal.coe_zero]
  have h2 : Ideal.exp (0 : EReal) = 1 := by
    rw [← EReal.coe_zero, Ideal.exp_coe, Real.exp_zero, EReal.coe_one]
  rw [h2, zero_add]
  unfold Ideal.div
  rw [if_neg one_ne_zero, inv_one, mul_one]

end Cert.Spec

end
-- ==== Proof.RefValue.lean ====
/-
  The reference's result is the specification's function G, for argument arrays whose entries are real.

  The reference computes the fused projection of every token (a dot product over the 384 channels plus the bias), and
  cuts it into the query (column 0), the key (columns 1..384) and the value (columns 385..768). It multiplies the key by
  the softmax of the query taken over an axis of extent ONE. For a real query q that softmax is
  exp(q - max(-inf, q)) / (0 + exp(q - max(-inf, q))) = exp 0 / exp 0 = 1, so the product is the key itself; this is the
  one place where the entries have to be real (for q = +inf the difference q - q is not 0). Everything after it is read
  stage by stage at an index: the key summed over the positions is the context vector, max(value, 0) times it is the
  gated activation, and its dot product with the second weight plus the second bias is the result.
-/
import proofs.«170638_j78065325572222_1_alg».proof.Proof.Gen.ReferenceIdeal.Read
import proofs.«170638_j78065325572222_1_alg».proof.Proof.Spec
import proofs.«170638_j78065325572222_1_alg».proof.Proof.LibAllReal
import Idealize.ShloMosaic.PureOps.Reduce

noncomputable section

namespace Cert.RefValue

open Cert.ReferenceIdeal Cert.ReferenceIdeal.Gen Cert.ReferenceIdeal.Read
open Idealize.ShloMosaic Idealize.ShloMosaic.ValueIdx Cert.LibAllReal
open scoped BigOperators

variable (x0 : (⟨S32x4x1024x384, .f32⟩ : BufTy).Contents (Elt Ideal)) (x1 : (⟨S384x769, .f32⟩ : BufTy).Contents (Elt Ideal))
  (x2 : (⟨S769, .f32⟩ : BufTy).Contents (Elt Ideal)) (x3 : (⟨S384x384, .f32⟩ : BufTy).Contents (Elt Ideal))
  (x4 : (⟨S384, .f32⟩ : BufTy).Contents (Elt Ideal))

/-! ## The fused projection at a token and a column -/

theorem lidx_v0 (g : Fin 32) (p : Fin 4) (n : Fin 1024) (j : Fin 769) (k : Fin 384) :
    lidx_main_v0 (ix4 g p n j) k = ix4 g p n k :=
  funext fun a => Fin.ext (by match a with | ⟨0, _⟩ => rfl | ⟨1, _⟩ => rfl | ⟨2, _⟩ => rfl | ⟨3, _⟩ => rfl)

theorem ridx_v0 (g : Fin 32) (p : Fin 4) (n : Fin 1024) (j : Fin 769) (k : Fin 384) :
    ridx_main_v0 (ix4 g p n j) k = ix2 k j :=
  funext fun a => Fin.ext (by match a with | ⟨0, _⟩ => rfl | ⟨1, _⟩ => rfl)

theorem idx_v1v2 (g : Fin 32) (p : Fin 4) (n : Fin 1024) (j : Fin 769) :
    idx_main_v1 (idx_main_v2 (ix4 g p n j)) = ix1 j :=
  funext fun a => Fin.ext (by match a with | ⟨0, _⟩ => rfl)

/-- Stage 3 (the dot product plus the broadcast bias) at token (g, p, n) and column j is the specification's projection. -/
theorem v3_ix4 (g : Fin 32) (p : Fin 4) (n : Fin 1024) (j : Fin 769) :
    val_main_v3 (F := Ideal) x0 x1 x2 (ix4 g p n j) = Cert.Spec.proj x0 x1 x2 g p n j := by
  rw [val_main_v3_apply, val_main_v0_apply, val_main_v2_apply, val_main_v1_apply, idx_v1v2]
  simp only [lidx_v0, ridx_v0, Ideal.addf_def]
  rfl

/-! ## The softmax over one entry is 1 -/

/-- The fused projection is all real when the activations, the weight and the bias are. -/
theorem v3_real (h0 : AllReal x0) (h1 : AllReal x1) (h2 : AllReal x2) : AllReal (val_main_v3 (F := Ideal) x0 x1 x2) := by
  unfold val_main_v3 val_main_v0 val_main_v2 val_main_v1
  exact (AllReal.dotGeneral h0 h1 _ _).addf ((h2.broadcastInDim _ _).broadcastInDim _ _)

/-- So is the query. -/
theorem v4_real (h0 : AllReal x0) (h1 : AllReal x1) (h2 : AllReal x2) (i : S32x4x1024x1.Idx) :
    ∃ r : ℝ, val_main_v4 (F := Ideal) x0 x1 x2 i = (r : EReal) := by
  rw [val_main_v4_apply]
  exact v3_real x0 x1 x2 h0 h1 h2 _

/-- A maximum folded over one entry from b is max of that entry and b. -/
theorem fold_max_one (b : EReal) (f : Fin 1 → EReal) : (Finset.univ : Finset (Fin 1)).fold max b f = max (f 0) b := by
  have e : (Finset.univ : Finset (Fin 1)) = {0} := by decide
  rw [e, Finset.fold_singleton]

/-- The last axis has extent one: putting the one coordinate back into an index with that axis dropped gives the index. -/
theorem lift_v10 (h : S32x4x1024x1.Reduces [3] S32x4x1024) (i : S32x4x1024x1.Idx) (k : Fin (S32x4x1024x1.size 3)) :
    h.lift (idx_main_v10 i) k = i :=
  funext fun a => Fin.ext (by
    match a with
    | ⟨0, _⟩ => rfl
    | ⟨1, _⟩ => rfl
    | ⟨2, _⟩ => rfl
    | ⟨3, _⟩ =>
      have h1 : k.val < 1 := k.isLt
      have h2 : (i 3).val < 1 := (i 3).isLt
      show k.val = (i 3).val
      omega)

theorem idx_v13v14 (i : S32x4x1024x1.Idx) : idx_main_v13 (idx_main_v14 i) 0 = i :=
  funext fun a => Fin.ext (by
    match a with
    | ⟨0, _⟩ => rfl
    | ⟨1, _⟩ => rfl
    | ⟨2, _⟩ => rfl
    | ⟨3, _⟩ =>
      have h2 : (i 3).val < 1 := (i 3).isLt
      show 0 = (i 3).val
      omega)

/-- The row maximum of the query over its one entry, from minus infinity. -/
theorem v7_eq (i : S32x4x1024x1.Idx) :
    val_main_v7 (F := Ideal) x0 x1 x2 (idx_main_v10 i) = max (val_main_v4 (F := Ideal) x0 x1 x2 i) ⊥ := by
  unfold val_main_v7
  rw [Host.reduce_eq_fold_single FloatOps.maximumf _ _ reducesTo_S32x4x1024x1_S32x4x1024_d3 (by decide) h_S_]
  simp only [Function.comp_def, lift_v10]
  show (Finset.univ : Finset (Fin 1)).fold max (Ideal.ofBits .f32 0xFF800000#32) (fun _ : Fin 1 => val_main_v4 (F := Ideal) x0 x1 x2 i) = _
  rw [fold_max_one, Cert.Spec.ofBits_neg_inf]

/-- The exponential of the query minus its row maximum, as the specification's lemma has it. -/
theorem v12_eq (i : S32x4x1024x1.Idx) :
    val_main_v12 (F := Ideal) x0 x1 x2 i
      = Ideal.exp (val_main_v4 (F := Ideal) x0 x1 x2 i - max ⊥ (max (val_main_v4 (F := Ideal) x0 x1 x2 i) ⊥)) := by
  rw [val_main_v12_apply, val_main_v11_apply, val_main_v10_apply, val_main_v9_apply, val_main_v8_apply, val_main_cst_0_apply, v7_eq]
  simp only [Ideal.hostUnary_exp_def, Ideal.subf_def, Ideal.maximumf_def, Ideal.ofBits_def, Cert.Spec.ofBits_neg_inf]

/-- For real arguments the softmax of the query is 1 everywhere. -/
theorem v15_one (h0 : AllReal x0) (h1 : AllReal x1) (h2 : AllReal x2) (i : S32x4x1024x1.Idx) :
    val_main_v15 (F := Ideal) x0 x1 x2 i = 1 := by
  rw [val_main_v15_apply, val_main_v14_apply, val_main_v13_apply, val_main_cst_1_apply, Fin.sum_univ_one, idx_v13v14, v12_eq]
  obtain ⟨r, hr⟩ := v4_real x0 x1 x2 h0 h1 h2 i
  rw [hr]
  simp only [Ideal.hostDivf_def, Ideal.ofBits_def, Ideal.ofBits_zero_f32]
  exact Cert.Spec.softmax_one r

/-! ## The context vector, the gated activation, the result -/

/-- The key times the softmax is the key. -/
theorem v17_eq (h0 : AllReal x0) (h1 : AllReal x1) (h2 : AllReal x2) (i : S32x4x1024x384.Idx) :
    val_main_v17 (F := Ideal) x0 x1 x2 i = val_main_v5 (F := Ideal) x0 x1 x2 i := by
  rw [val_main_v17_apply, val_main_v16_apply, v15_one x0 x1 x2 h0 h1 h2, Ideal.mulf_def, mul_one]

theorem idx_v5v18 (g : Fin 32) (p : Fin 4) (d : Fin 384) (n : Fin 1024) :
    idx_main_v5 (idx_main_v18 (ix3 g p d) n) = ix4 g p n (Cert.Spec.keyCol d) :=
  funext fun a => Fin.ext (by match a with | ⟨0, _⟩ => rfl | ⟨1, _⟩ => rfl | ⟨2, _⟩ => rfl | ⟨3, _⟩ => rfl)

/-- The sum of the key over the positions is the context vector. -/
theorem v18_ix3 (h0 : AllReal x0) (h1 : AllReal x1) (h2 : AllReal x2) (g : Fin 32) (p : Fin 4) (d : Fin 384) :
    val_main_v18 (F := Ideal) x0 x1 x2 (ix3 g p d) = Cert.Spec.ctx x0 x1 x2 g p d := by
  rw [val_main_v18_apply, val_main_cst_2_apply]
  simp only [Ideal.ofBits_def, Ideal.ofBits_zero_f32, zero_add]
  unfold Cert.Spec.ctx
  refine Finset.sum_congr rfl fun n _ => ?_
  rw [v17_eq x0 x1 x2 h0 h1 h2, val_main_v5_apply, idx_v5v18, v3_ix4]

theorem idx_v6 (g : Fin 32) (p : Fin 4) (n : Fin 1024) (d : Fin 384) :
    idx_main_v6 (ix4 g p n d) = ix4 g p n (Cert.Spec.valCol d) :=
  funext fun a => Fin.ext (by match a with | ⟨0, _⟩ => rfl | ⟨1, _⟩ => rfl | ⟨2, _⟩ => rfl | ⟨3, _⟩ => rfl)

theorem idx_v19v21 (g : Fin 32) (p : Fin 4) (n : Fin 1024) (d : Fin 384) :
    idx_main_v19 (idx_main_v21 (ix4 g p n d)) = ix3 g p d :=
  funext fun a => Fin.ext (by match a with | ⟨0, _⟩ => rfl | ⟨1, _⟩ => rfl | ⟨2, _⟩ => rfl)

/-- max(value, 0) times the broadcast context vector is the gated activation. -/
theorem v22_ix4 (h0 : AllReal x0) (h1 : AllReal x1) (h2 : AllReal x2) (g : Fin 32) (p : Fin 4) (n : Fin 1024) (d : Fin 384) :
    val_main_v22 (F := Ideal) x0 x1 x2 (ix4 g p n d) = Cert.Spec.gated x0 x1 x2 g p n d := by
  rw [val_main_v22_apply, val_main_v20_apply, val_main_v6_apply, val_main_call0_v0_apply, val_main_call0_cst_apply,
    val_main_v21_apply, val_main_v19_apply, idx_v6, idx_v19v21, v3_ix4, v18_ix3 x0 x1 x2 h0 h1 h2]
  simp only [Ideal.mulf_def, Ideal.maximumf_def, Ideal.ofBits_def, Ideal.ofBits_zero_f32]
  rfl

theorem lidx_v23 (g : Fin 32) (p : Fin 4) (n : Fin 1024) (e : Fin 384) (k : Fin 384) :
    lidx_main_v23 (ix4 g p n e) k = ix4 g p n k :=
  funext fun a => Fin.ext (by match a with | ⟨0, _⟩ => rfl | ⟨1, _⟩ => rfl | ⟨2, _⟩ => rfl | ⟨3, _⟩ => rfl)

theorem ridx_v23 (g : Fin 32) (p : Fin 4) (n : Fin 1024) (e : Fin 384) (k : Fin 384) :
    ridx_main_v23 (ix4 g p n e) k = ix2 k e :=
  funext fun a => Fin.ext (by match a with | ⟨0, _⟩ => rfl | ⟨1, _⟩ => rfl)

theorem idx_v24v25 (g : Fin 32) (p : Fin 4) (n : Fin 1024) (e : Fin 384) :
    idx_main_v24 (idx_main_v25 (ix4 g p n e)) = ix1 e :=
  funext fun a => Fin.ext (by match a with | ⟨0, _⟩ => rfl)

/-- The reference's last stage is G of the five argument arrays. -/
theorem v26_eq_G (h0 : AllReal x0) (h1 : AllReal x1) (h2 : AllReal x2) :
    val_main_v26 (F := Ideal) x0 x1 x2 x3 x4 = Cert.Spec.G x0 x1 x2 x3 x4 := by
  funext i
  obtain ⟨g, p, n, e, rfl⟩ : ∃ (g : Fin 32) (p : Fin 4) (n : Fin 1024) (e : Fin 384), i = ix4 g p n e :=
    ⟨i 0, i 1, i 2, i 3, eq_ix4 i⟩
  rw [val_main_v26_apply, val_main_v23_apply, val_main_v25_apply, val_main_v24_apply, idx_v24v25, Cert.Spec.G_ix4]
  unfold Cert.Spec.out
  simp only [lidx_v23, ridx_v23, v22_ix4 x0 x1 x2 h0 h1 h2, Ideal.addf_def]

end Cert.RefValue

end
-- ==== Proof.KernelPayload.lean ====
/-
  What the kernel body stores, read at an index.

  At one grid point the body holds one group's activations as a block [1, 1024, 384] and the whole sliced weight
  [384, 768], sliced bias [768], second weight [384, 384] and second bias [384]. It forms the block's fused projection
  (one matrix product into a zero accumulator plus the bias broadcast over the rows), takes columns 0..383 as the key and
  384..767 as the value, sums the key over the 1024 rows, multiplies max(value, 0) by that row of sums, and forms the
  second matrix product plus the second bias. The changes of float format in between are the identity at the ideal values.
  Here that one stored value is written as a composition of three named terms and each is read at an index, so that the
  stored block at (0, n, e) is a formula in the five loaded arrays.
-/
import proofs.«170638_j78065325572222_1_alg».proof.Proof.Gen.KernelIdeal.Skeleton
import proofs.«170638_j78065325572222_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelPayload

open Cert.KernelIdeal Cert.KernelIdeal.Gen
open Idealize.ShloMosaic Idealize.ShloMosaic.ValueIdx
open scoped BigOperators

/-! ## The two matrix products at an index -/

theorem lhs1_0 (i : S1024x768.Idx) (q : dot_S1024x384_S384x768_S1024x768_1_0_0_1_n_n.contr.Idx) :
    (dot_S1024x384_S384x768_S1024x768_1_0_0_1_n_n.lhsIdx i q 0).val = (i 0).val := by
  unfold DotDims.lhsIdx
  rw [dif_neg (show ¬(0 : Fin S1024x384.rank) ∈ dot_S1024x384_S384x768_S1024x768_1_0_0_1_n_n.lhsBatch by decide), dif_pos (show (0 : Fin S1024x384.rank) ∈ dot_S1024x384_S384x768_S1024x768_1_0_0_1_n_n.lhsNonContracting by decide)]
  rfl
theorem lhs1_1 (i : S1024x768.Idx) (q : dot_S1024x384_S384x768_S1024x768_1_0_0_1_n_n.contr.Idx) :
    (dot_S1024x384_S384x768_S1024x768_1_0_0_1_n_n.lhsIdx i q 1).val = (q ⟨0, by decide⟩).val :=
  dot_S1024x384_S384x768_S1024x768_1_0_0_1_n_n.lhsIdx_val_of_single rfl i q
theorem rhs1_0 (i : S1024x768.Idx) (q : dot_S1024x384_S384x768_S1024x768_1_0_0_1_n_n.contr.Idx) :
    (dot_S1024x384_S384x768_S1024x768_1_0_0_1_n_n.rhsIdx i q 0).val = (q ⟨0, by decide⟩).val :=
  dot_S1024x384_S384x768_S1024x768_1_0_0_1_n_n.rhsIdx_val_of_single rfl i q
theorem rhs1_1 (i : S1024x768.Idx) (q : dot_S1024x384_S384x768_S1024x768_1_0_0_1_n_n.contr.Idx) :
    (dot_S1024x384_S384x768_S1024x768_1_0_0_1_n_n.rhsIdx i q 1).val = (i 1).val := by
  unfold DotDims.rhsIdx
  rw [dif_neg (show ¬(1 : Fin S384x768.rank) ∈ dot_S1024x384_S384x768_S1024x768_1_0_0_1_n_n.rhsBatch by decide), dif_pos (show (1 : Fin S384x768.rank) ∈ dot_S1024x384_S384x768_S1024x768_1_0_0_1_n_n.rhsNonContracting by decide)]
  rfl

/-- A matrix product into the zero accumulator, read at row n and column j: the sum over the 384 contracted channels. -/
theorem matmul1_apply (l : FVec Ideal S1024x384 .bf16) (r : FVec Ideal S384x768 .bf16) (n : Fin 1024) (j : Fin 768) :
    matmul dot_S1024x384_S384x768_S1024x768_1_0_0_1_n_n none l r (constant (F := Ideal) S1024x768 .f32 0x00000000#32) (ix2 n j)
      = ∑ c : Fin 384, l (ix2 n c) * r (ix2 c j) := by
  simp only [matmul]
  rw [Ideal.matmul_constant_zero_apply, ← Equiv.sum_comp (ValueIdx.contrEquiv1 dot_S1024x384_S384x768_S1024x768_1_0_0_1_n_n 384 rfl rfl).symm]
  refine Finset.sum_congr rfl fun k _ => ?_
  have hk := ValueIdx.contrEquiv1_symm_val dot_S1024x384_S384x768_S1024x768_1_0_0_1_n_n 384 rfl rfl k
  have el : dot_S1024x384_S384x768_S1024x768_1_0_0_1_n_n.lhsIdx (ix2 n j) ((ValueIdx.contrEquiv1 dot_S1024x384_S384x768_S1024x768_1_0_0_1_n_n 384 rfl rfl).symm k) = ix2 n k := funext fun a => Fin.ext (by
    match a with
    | ⟨0, _⟩ => exact lhs1_0 _ _
    | ⟨1, _⟩ => exact (lhs1_1 _ _).trans hk)
  have er : dot_S1024x384_S384x768_S1024x768_1_0_0_1_n_n.rhsIdx (ix2 n j) ((ValueIdx.contrEquiv1 dot_S1024x384_S384x768_S1024x768_1_0_0_1_n_n 384 rfl rfl).symm k) = ix2 k j := funext fun a => Fin.ext (by
    match a with
    | ⟨0, _⟩ => exact (rhs1_0 _ _).trans hk
    | ⟨1, _⟩ => exact rhs1_1 _ _)
  rw [el, er]

theorem lhs2_0 (i : S1024x384.Idx) (q : dot_S1024x384_S384x384_S1024x384_1_0_0_1_n_n.contr.Idx) :
    (dot_S1024x384_S384x384_S1024x384_1_0_0_1_n_n.lhsIdx i q 0).val = (i 0).val := by
  unfold DotDims.lhsIdx
  rw [dif_neg (show ¬(0 : Fin S1024x384.rank) ∈ dot_S1024x384_S384x384_S1024x384_1_0_0_1_n_n.lhsBatch by decide), dif_pos (show (0 : Fin S1024x384.rank) ∈ dot_S1024x384_S384x384_S1024x384_1_0_0_1_n_n.lhsNonContracting by decide)]
  rfl
theorem lhs2_1 (i : S1024x384.Idx) (q : dot_S1024x384_S384x384_S1024x384_1_0_0_1_n_n.contr.Idx) :
    (dot_S1024x384_S384x384_S1024x384_1_0_0_1_n_n.lhsIdx i q 1).val = (q ⟨0, by decide⟩).val :=
  dot_S1024x384_S384x384_S1024x384_1_0_0_1_n_n.lhsIdx_val_of_single rfl i q
theorem rhs2_0 (i : S1024x384.Idx) (q : dot_S1024x384_S384x384_S1024x384_1_0_0_1_n_n.contr.Idx) :
    (dot_S1024x384_S384x384_S1024x384_1_0_0_1_n_n.rhsIdx i q 0).val = (q ⟨0, by decide⟩).val :=
  dot_S1024x384_S384x384_S1024x384_1_0_0_1_n_n.rhsIdx_val_of_single rfl i q
theorem rhs2_1 (i : S1024x384.Idx) (q : dot_S1024x384_S384x384_S1024x384_1_0_0_1_n_n.contr.Idx) :
    (dot_S1024x384_S384x384_S1024x384_1_0_0_1_n_n.rhsIdx i q 1).val = (i 1).val := by
  unfold DotDims.rhsIdx
  rw [dif_neg (show ¬(1 : Fin S384x384.rank) ∈ dot_S1024x384_S384x384_S1024x384_1_0_0_1_n_n.rhsBatch by decide), dif_pos (show (1 : Fin S384x384.rank) ∈ dot_S1024x384_S384x384_S1024x384_1_0_0_1_n_n.rhsNonContracting by decide)]
  rfl

/-- A matrix product into the zero accumulator, read at row n and column e: the sum over the 384 contracted channels. -/
theorem matmul2_apply (l : FVec Ideal S1024x384 .bf16) (r : FVec Ideal S384x384 .bf16) (n : Fin 1024) (e : Fin 384) :
    matmul dot_S1024x384_S384x384_S1024x384_1_0_0_1_n_n none l r (constant (F := Ideal) S1024x384 .f32 0x00000000#32) (ix2 n e)
      = ∑ c : Fin 384, l (ix2 n c) * r (ix2 c e) := by
  simp only [matmul]
  rw [Ideal.matmul_constant_zero_apply, ← Equiv.sum_comp (ValueIdx.contrEquiv1 dot_S1024x384_S384x384_S1024x384_1_0_0_1_n_n 384 rfl rfl).symm]
  refine Finset.sum_congr rfl fun k _ => ?_
  have hk := ValueIdx.contrEquiv1_symm_val dot_S1024x384_S384x384_S1024x384_1_0_0_1_n_n 384 rfl rfl k
  have el : dot_S1024x384_S384x384_S1024x384_1_0_0_1_n_n.lhsIdx (ix2 n e) ((ValueIdx.contrEquiv1 dot_S1024x384_S384x384_S1024x384_1_0_0_1_n_n 384 rfl rfl).symm k) = ix2 n k := funext fun a => Fin.ext (by
    match a with
    | ⟨0, _⟩ => exact lhs2_0 _ _
    | ⟨1, _⟩ => exact (lhs2_1 _ _).trans hk)
  have er : dot_S1024x384_S384x384_S1024x384_1_0_0_1_n_n.rhsIdx (ix2 n e) ((ValueIdx.contrEquiv1 dot_S1024x384_S384x384_S1024x384_1_0_0_1_n_n 384 rfl rfl).symm k) = ix2 k e := funext fun a => Fin.ext (by
    match a with
    | ⟨0, _⟩ => exact (rhs2_0 _ _).trans hk
    | ⟨1, _⟩ => exact rhs2_1 _ _)
  rw [el, er]

variable (v0 : Vec Ideal S1x1024x384 .f32) (v3 : Vec Ideal S384x768 .f32) (v7 : Vec Ideal S768 .f32)
  (v21 : Vec Ideal S384x384 .f32) (v24 : Vec Ideal S384 .f32)

/-! ## The block's formulas -/

/-- Column j of row n's fused projection, from the block and the sliced weight and bias. -/
def bproj (n : Fin 1024) (j : Fin 768) : EReal :=
  (∑ c : Fin 384, v0 (ix3 (0 : Fin 1) n c) * v3 (ix2 c j)) + v7 (ix1 j)

/-- The key's column for channel d in the sliced projection: column d. -/
def bkeyCol (d : Fin 384) : Fin 768 := ⟨d.val, by have := d.isLt; omega⟩
/-- The value's column for channel d in the sliced projection: column 384 + d. -/
def bvalCol (d : Fin 384) : Fin 768 := ⟨384 + d.val, by have := d.isLt; omega⟩

/-- Channel d of the block's context vector: the key's channel d summed over the 1024 rows. -/
def bctx (d : Fin 384) : EReal := ∑ n : Fin 1024, bproj v0 v3 v7 n (bkeyCol d)

/-- Channel d of row n's gated activation. -/
def bgated (n : Fin 1024) (d : Fin 384) : EReal := max (bproj v0 v3 v7 n (bvalCol d)) 0 * bctx v0 v3 v7 d

/-- Channel e of row n's result. -/
def bout (n : Fin 1024) (e : Fin 384) : EReal :=
  (∑ d : Fin 384, bgated v0 v3 v7 n d * v21 (ix2 d e)) + v24 (ix1 e)

/-! ## The body's terms -/

/-- The block's fused projection as the body computes it. -/
def kvT : FVec Ideal S1024x768 .f32 :=
  addf (matmul dot_S1024x384_S384x768_S1024x768_1_0_0_1_n_n none
      (truncf .bf16 (shapeCast S1024x384 v0 shapeCasts_S1x1024x384_S1024x384) bitsLt_bf16_f32)
      (truncf .bf16 (shapeCast S384x768 v3 shapeCasts_S384x768_S384x768) bitsLt_bf16_f32)
      (constant S1024x768 .f32 0x00000000#32))
    (broadcastTo S1024x768 (shapeCast S1x768 (shapeCast S768 v7 shapeCasts_S768_S768) shapeCasts_S768_S1x768) broadcasts_S1x768_S1024x768)

theorem kvT_apply (n : Fin 1024) (j : Fin 768) : kvT v0 v3 v7 (ix2 n j) = bproj v0 v3 v7 n j := by
  unfold kvT bproj
  rw [addf_apply, matmul1_apply, broadcastTo_1b_ab_apply, shapeCast_a_1a_apply, shapeCast_self]
  simp only [truncf_apply, shapeCast_1ab_ab_apply, shapeCast_self]

/-- The gated activation as the body computes it. -/
def gatedT : FVec Ideal S1024x384 .f32 :=
  mulf (maximumf (extractStridedSlice S1024x384 ![0, 384] (kvT v0 v3 v7) slices_S1024x768_o0_384_S1024x384)
      (broadcast S1024x384 (Scalar.ofBits .f32 0x00000000#32)))
    (broadcastTo S1024x384
      (shapeCast S1x384 (multiReduction .add [0] S384 (extractStridedSlice S1024x384 ![0, 0] (kvT v0 v3 v7) slices_S1024x768_o0_0_S1024x384)
        0x00000000#32 reduces_S1024x384_S384 (.inl rfl) rfl) shapeCasts_S384_S1x384)
      broadcasts_S1x384_S1024x384)

/-- The reduced index d with row n put back is (n, d). -/
theorem lift_row (d : Fin 384) (k : Fin (S1024x384.size 0)) :
    reduces_S1024x384_S384.lift (ix1 d) k = ix2 (⟨k.val, k.isLt⟩ : Fin 1024) d :=
  funext fun a => Fin.ext (by match a with | ⟨0, _⟩ => rfl | ⟨1, _⟩ => rfl)

/-- The sum over the 1024 rows from the zero accumulator, read at channel d. -/
theorem rowsum_apply (src : FVec Ideal S1024x384 .f32) (d : Fin 384) :
    multiReduction .add [0] S384 src 0x00000000#32 reduces_S1024x384_S384 (.inl rfl) rfl (ix1 d)
      = ∑ n : Fin 1024, src (ix2 n d) :=
  (Ideal.multiReduction_add_single src 0x00000000#32 reduces_S1024x384_S384 (.inl rfl) rfl (ix1 d)).trans
    (Finset.sum_congr rfl fun k _ => congrArg src (lift_row d k))

theorem gatedT_apply (n : Fin 1024) (d : Fin 384) : gatedT v0 v3 v7 (ix2 n d) = bgated v0 v3 v7 n d := by
  unfold gatedT bgated bctx
  rw [mulf_apply, maximumf_apply, broadcast_apply, broadcastTo_1b_ab_apply, shapeCast_a_1a_apply,
    slice2_axis1_apply 384 _ _ n d (bvalCol d) rfl, kvT_apply, rowsum_apply]
  have hs : ∀ k : Fin 1024,
      extractStridedSlice S1024x384 ![0, 0] (kvT v0 v3 v7) slices_S1024x768_o0_0_S1024x384 (ix2 k d)
        = bproj v0 v3 v7 k (bkeyCol d) := fun k => by
    rw [slice2_axis1_apply 0 _ _ k d (bkeyCol d) (by show d.val = 0 + d.val; omega), kvT_apply]
  simp only [hs]
  show max _ (Ideal.ofBits .f32 0x00000000#32) * _ = _
  rw [Ideal.ofBits_zero_f32]

/-- The stored value as the body computes it. -/
def outT : FVec Ideal S1x1024x384 .f32 :=
  shapeCast S1x1024x384
    (addf (matmul dot_S1024x384_S384x384_S1024x384_1_0_0_1_n_n none
        (truncf .bf16 (gatedT v0 v3 v7) bitsLt_bf16_f32) (truncf .bf16 v21 bitsLt_bf16_f32)
        (constant S1024x384 .f32 0x00000000#32))
      (broadcastTo S1024x384 (shapeCast S1x384 v24 shapeCasts_S384_S1x384) broadcasts_S1x384_S1024x384))
    shapeCasts_S1024x384_S1x1024x384

/-- The skeleton's payload is that composition. -/
theorem pay_eq : k0_pay1 (F := Ideal) v0 v3 v7 v21 v24 = outT v0 v3 v7 v21 v24 := rfl

theorem outT_apply (z : Fin 1) (n : Fin 1024) (e : Fin 384) : outT v0 v3 v7 v21 v24 (ix3 z n e) = bout v0 v3 v7 v21 v24 n e := by
  unfold outT bout
  rw [shapeCast_ab_1ab_apply, addf_apply, matmul2_apply, broadcastTo_1b_ab_apply, shapeCast_a_1a_apply]
  simp only [truncf_apply, gatedT_apply]

/-- The stored block at (0, n, e). -/
theorem pay_apply (z : Fin 1) (n : Fin 1024) (e : Fin 384) :
    k0_pay1 (F := Ideal) v0 v3 v7 v21 v24 (ix3 z n e) = bout v0 v3 v7 v21 v24 n e := by
  rw [pay_eq, outT_apply]

/-! ## The block's formulas against the specification -/

/-- Column j of the sliced weight and bias is column 1 + j of the fused ones (the slice drops the query's column). -/
def shiftCol (j : Fin 768) : Fin 769 := ⟨1 + j.val, by have := j.isLt; omega⟩

/-- If the block is group (g, p)'s rows of the activations, the sliced weight and bias are the fused ones from column 1 on,
    and the second weight and bias are the arguments', then row n of the stored block is token (g, p, n)'s result. The key's
    column d of the slice is the fused column 1 + d, the value's column 384 + d the fused column 385 + d. -/
theorem bout_eq_out (x : Cert.Spec.SX.Idx → EReal) (w : Cert.Spec.SW.Idx → EReal) (b : Cert.Spec.SB.Idx → EReal)
    (wp : Cert.Spec.SWp.Idx → EReal) (bp : Cert.Spec.SBp.Idx → EReal) (g : Fin 32) (p : Fin 4)
    (h0 : ∀ (n : Fin 1024) (k : Fin 384), v0 (ix3 (0 : Fin 1) n k) = x (ix4 g p n k))
    (h3 : ∀ (k : Fin 384) (j : Fin 768), v3 (ix2 k j) = w (ix2 k (shiftCol j)))
    (h7 : ∀ j : Fin 768, v7 (ix1 j) = b (ix1 (shiftCol j)))
    (h21 : ∀ d e : Fin 384, v21 (ix2 d e) = wp (ix2 d e))
    (h24 : ∀ e : Fin 384, v24 (ix1 e) = bp (ix1 e)) (n : Fin 1024) (e : Fin 384) :
    bout v0 v3 v7 v21 v24 n e = Cert.Spec.out x w b wp bp g p n e := by
  have hp : ∀ (n : Fin 1024) (j : Fin 768), bproj v0 v3 v7 n j = Cert.Spec.proj x w b g p n (shiftCol j) := fun n j => by
    unfold bproj Cert.Spec.proj
    simp only [h0, h3, h7]
  have hk : ∀ d : Fin 384, shiftCol (bkeyCol d) = Cert.Spec.keyCol d := fun d => rfl
  have hv : ∀ d : Fin 384, shiftCol (bvalCol d) = Cert.Spec.valCol d := fun d =>
    Fin.ext (by show 1 + (384 + d.val) = 385 + d.val; omega)
  unfold bout bgated bctx Cert.Spec.out Cert.Spec.gated Cert.Spec.ctx
  simp only [hp, hk, hv, h21, h24]

end Cert.KernelPayload

end
-- ==== Proof.KernelValue.lean ====
/-
  The kernel program's result array is the specification's function G of the five argument arrays.

  Before the region the program slices the query's column off the fused weight and bias and reshapes the activations
  [32, 4, 1024, 384] to [128, 1024, 384]: group t of the reshaped array is batch t / 4, patch t % 4. The region runs the
  body once per group; at point t it reads block t of the reshaped activations and the four parameter arrays whole, and
  writes block t of the output [128, 1024, 384]. The 128 blocks tile that array, so it ends holding, at (t, n, e), token
  (t / 4, t % 4, n)'s result at channel e. After the region the program reshapes it back to [32, 4, 1024, 384].
-/
import proofs.«170638_j78065325572222_1_alg».proof.Proof.Gen.KernelIdeal.Frame
import proofs.«170638_j78065325572222_1_alg».proof.Proof.KernelPayload
import Idealize.ShloMosaic.Lib.Pipeline.Value
import Idealize.ShloMosaic.Lib.StableHlo.Run
import Idealize.ShloMosaic.Lib.ValueLayout

set_option maxRecDepth 16384

noncomputable section

namespace Cert.KernelValue

open Cert.KernelIdeal Cert.KernelIdeal.Gen Cert.KernelPayload
open Idealize.ShloMosaic Idealize.ShloMosaic.TcCoe Idealize.ShloMosaic.StableHlo Idealize.ShloMosaic.ValueIdx
open Idealize.SL.Sem
open Idealize.ShloMosaic.Pipeline (Dat Cfg Window)
open scoped BigOperators

variable (m : (ℓ : Loc nD τ sig) → Buf (Elt Ideal) ℓ) (ρ : Dev nD → PrngReg)

/-! ## The arrays the region finds -/

/-- The sliced weight: the fused weight from column 1 on. -/
theorem V_v0 (c : Dev nD) : (V m c main_v0 : S384x768.Idx → EReal)
    = extractStridedSlice S384x768 ![0, 1] (m ((c : Thread nD τ).loc main_arg1)) slices_S384x769_S384x768_0_1 := by
  show StableHlo.after hostOps0 (fun b => m (c, b)) (Proc.devRef .tc main_v0) = _
  after_results

/-- The sliced bias: the fused bias from entry 1 on. -/
theorem V_v1 (c : Dev nD) : (V m c main_v1 : S768.Idx → EReal)
    = extractStridedSlice S768 ![1] (m ((c : Thread nD τ).loc main_arg2)) slices_S769_S768_1 := by
  show StableHlo.after hostOps0 (fun b => m (c, b)) (Proc.devRef .tc main_v1) = _
  after_results

/-- The reshaped activations. -/
theorem V_v2 (c : Dev nD) : (V m c main_v2 : S128x1024x384.Idx → EReal)
    = shapeCast S128x1024x384 (m ((c : Thread nD τ).loc main_arg0)) shapeCasts_S32x4x1024x384_S128x1024x384 := by
  show StableHlo.after hostOps0 (fun b => m (c, b)) (Proc.devRef .tc main_v2) = _
  after_results
  rfl

/-! ## Groups of rows -/

/-- Group t of the reshaped activations is batch t / 4 ... -/
def grp (t : Fin 128) : Fin 32 := ⟨t.val / 4, by have := t.isLt; omega⟩
/-- ... and patch t % 4. -/
def pat (t : Fin 128) : Fin 4 := ⟨t.val % 4, Nat.mod_lt _ (by decide)⟩

/-- The reshaped activations at (t, n, k) are the activations at (t / 4, t % 4, n, k): the same row-major position. -/
theorem V_v2_apply (c : Dev nD) (t : Fin 128) (n : Fin 1024) (k : Fin 384) :
    (V m c main_v2 : S128x1024x384.Idx → EReal) (ix3 t n k)
      = m ((c : Thread nD τ).loc main_arg0) (ix4 (grp t) (pat t) n k) := by
  refine (congrFun (V_v2 m c) (ix3 t n k)).trans ?_
  refine shapeCast_apply _ _ _ _ ?_
  show (S32x4x1024x384.rowMajor (ix4 (grp t) (pat t) n k)).val = (S128x1024x384.rowMajor (ix3 t n k)).val
  rw [Shape.rowMajor_val_four, Shape.rowMajor_val_three]
  show (((t.val / 4) * 4 + t.val % 4) * 1024 + n.val) * 384 + k.val = (t.val * 1024 + n.val) * 384 + k.val
  have := Nat.div_add_mod t.val 4
  omega

/-- The sliced weight at (k, j) is the fused weight at (k, 1 + j). -/
theorem V_v0_apply (c : Dev nD) (k : Fin 384) (j : Fin 768) :
    (V m c main_v0 : S384x768.Idx → EReal) (ix2 k j) = m ((c : Thread nD τ).loc main_arg1) (ix2 k (shiftCol j)) := by
  refine (congrFun (V_v0 m c) (ix2 k j)).trans ?_
  exact slice2_axis1_apply 1 _ _ k j (shiftCol j) rfl

/-- The sliced bias at j is the fused bias at 1 + j. -/
theorem V_v1_apply (c : Dev nD) (j : Fin 768) :
    (V m c main_v1 : S768.Idx → EReal) (ix1 j) = m ((c : Thread nD τ).loc main_arg2) (ix1 (shiftCol j)) := by
  refine (congrFun (V_v1 m c) (ix1 j)).trans ?_
  exact extractStridedSlice_apply _ _ _ _ _ (fun a => by match a with | ⟨0, _⟩ => rfl)

/-! ## The index maps, decided over the grid -/

/-- Window 0 (the activations) and window 5 (the output) are at block (t, 0, 0) at point t; the four parameter windows
    stay at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-- A point of the grid as a group number. -/
def ptGroup (t : Fin cfg0.N) : Fin 128 := ⟨t.val, by have h := t.isLt; have e : cfg0.N = 128 := N_0; omega⟩

/-! ## The blocks the body reads -/

theorem blk0 (c : Dev nD) (t : Fin cfg0.N) (n : Fin 1024) (k : Fin 384) :
    iblk m c 0 t (ix3 (0 : Fin 1) n k) = V m c main_v2 (ix3 (ptGroup t) n k) := by
  show V m c main_v2 (((cfg0.win 0).blk t).view.emb (ix3 (0 : Fin 1) n k)) = V m c main_v2 _
  refine congrArg (V m c main_v2) (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 384 + 1 * k.val = k.val; omega

theorem blk1 (c : Dev nD) (t : Fin cfg0.N) (k : Fin 384) (j : Fin 768) :
    iblk m c 1 t (ix2 k j) = V m c main_v0 (ix2 k j) := by
  show V m c main_v0 (((cfg0.win 1).blk t).view.emb (ix2 k j)) = V m c main_v0 _
  refine congrArg (V m c main_v0) (funext fun a => Fin.ext ?_)
  obtain ⟨-, -, -, e0, e1, -⟩ := idx_facts t
  match a with
  | ⟨0, _⟩ => show win0_1.index t (0 : Fin 2) * 384 + 1 * k.val = k.val; omega
  | ⟨1, _⟩ => show win0_1.index t (1 : Fin 2) * 768 + 1 * j.val = j.val; omega

theorem blk2 (c : Dev nD) (t : Fin cfg0.N) (j : Fin 768) :
    iblk m c 2 t (ix1 j) = V m c main_v1 (ix1 j) := by
  show V m c main_v1 (((cfg0.win 2).blk t).view.emb (ix1 j)) = V m c main_v1 _
  refine congrArg (V m c main_v1) (funext fun a => Fin.ext ?_)
  obtain ⟨-, -, -, -, -, e0, -⟩ := idx_facts t
  match a with
  | ⟨0, _⟩ => show win0_2.index t (0 : Fin 1) * 768 + 1 * j.val = j.val; omega

theorem blk3 (c : Dev nD) (t : Fin cfg0.N) (d e : Fin 384) :
    iblk m c 3 t (ix2 d e) = V m c main_arg3 (ix2 d e) := by
  show V m c main_arg3 (((cfg0.win 3).blk t).view.emb (ix2 d e)) = V m c main_arg3 _
  refine congrArg (V m c main_arg3) (funext fun a => Fin.ext ?_)
  obtain ⟨-, -, -, -, -, -, e0, e1, -⟩ := idx_facts t
  match a with
  | ⟨0, _⟩ => show win0_3.index t (0 : Fin 2) * 384 + 1 * d.val = d.val; omega
  | ⟨1, _⟩ => show win0_3.index t (1 : Fin 2) * 384 + 1 * e.val = e.val; omega

theorem blk4 (c : Dev nD) (t : Fin cfg0.N) (e : Fin 384) :
    iblk m c 4 t (ix1 e) = V m c main_arg4 (ix1 e) := by
  show V m c main_arg4 (((cfg0.win 4).blk t).view.emb (ix1 e)) = V m c main_arg4 _
  refine congrArg (V m c main_arg4) (funext fun a => Fin.ext ?_)
  obtain ⟨-, -, -, -, -, -, -, -, e0, -⟩ := idx_facts t
  match a with
  | ⟨0, _⟩ => show win0_4.index t (0 : Fin 1) * 384 + 1 * e.val = e.val; omega

/-! ## The output array -/

/-- What the output [128, 1024, 384] ends holding: at (t, n, e), token (t / 4, t % 4, n)'s result at channel e. -/
def G3 (c : Dev nD) : S128x1024x384.Idx → EReal := fun i =>
  Cert.Spec.out (m ((c : Thread nD τ).loc main_arg0)) (m ((c : Thread nD τ).loc main_arg1)) (m ((c : Thread nD τ).loc main_arg2)) (m ((c : Thread nD τ).loc main_arg3)) (m ((c : Thread nD τ).loc main_arg4))
    (grp (i 0)) (pat (i 0)) (i 1) (i 2)

theorem G3_ix3 (c : Dev nD) (t : Fin 128) (n : Fin 1024) (e : Fin 384) :
    G3 m c (ix3 t n e) = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (grp t) (pat t) n e := rfl

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Point t's block of the output is (t, 0, 0): local index (z, n, e) is the array's (t, n, e). -/
theorem emb5 (t : Fin cfg0.N) (z : Fin 1) (n : Fin 1024) (e : Fin 384) :
    ((cfg0.win 5).blk t).view.emb (ix3 z n e) = ix3 (ptGroup t) n e := by
  funext a; apply Fin.ext
  obtain ⟨-, -, -, -, -, -, -, -, -, e0, e1, e2⟩ := idx_facts t
  have hz : z.val = 0 := by omega
  match a with
  | ⟨0, _⟩ => show win0_5.index t (0 : Fin 3) * 1 + 1 * z.val = t.val; omega
  | ⟨1, _⟩ => show win0_5.index t (1 : Fin 3) * 1024 + 1 * n.val = n.val; omega
  | ⟨2, _⟩ => show win0_5.index t (2 : Fin 3) * 384 + 1 * e.val = e.val; omega

/-- What point t writes back is block t of that array. -/
theorem flushed_eq (c : Dev nD) (t : Fin cfg0.N) :
    (dats m 0 c).flushed 5 t = ((cfg0.win 5).blk t).view.read (Elt Ideal) (G3 m c) := by
  show (cfg0.win 5).cut (grid0.coords t) ((dats m 0 c).after 5 t) = _
  rw [after0_5]
  unfold out0_5
  rw [View.canon_unit_zero hz3]
  simp only [View.ld_unit_zero (S := S1x1024x384) hz3, View.ld_unit_zero (S := S384x768) hz2, View.ld_unit_zero (S := S768) hz1,
    View.ld_unit_zero (S := S384x384) hz2, View.ld_unit_zero (S := S384) hz1]
  funext j
  obtain ⟨z, n, e, rfl⟩ : ∃ (z : Fin 1) (n : Fin 1024) (e : Fin 384), j = ix3 z n e := ⟨j 0, j 1, j 2, eq_ix3 j⟩
  show k0_pay1 (F := Ideal) (iblk m c 0 t) (iblk m c 1 t) (iblk m c 2 t) (iblk m c 3 t) (iblk m c 4 t) (ix3 z n e)
    = G3 m c (((cfg0.win 5).blk t).view.emb (ix3 z n e))
  rw [emb5, G3_ix3]
  refine (pay_apply (iblk m c 0 t) (iblk m c 1 t) (iblk m c 2 t) (iblk m c 3 t) (iblk m c 4 t) z n e).trans ?_
  refine bout_eq_out (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3)) (m ((c : Thread nD τ).loc main_arg4))
    (grp (ptGroup t)) (pat (ptGroup t)) ?_ ?_ ?_ ?_ ?_ n e
  · intro n k
    exact (blk0 m c t n k).trans (V_v2_apply m c (ptGroup t) n k)
  · intro k j
    exact (blk1 m c t k j).trans (V_v0_apply m c k j)
  · intro j
    exact (blk2 m c t j).trans (V_v1_apply m c j)
  · intro d e
    exact (blk3 m c t d e).trans (congrFun (V_main_arg3 m c) (ix2 d e))
  · intro e
    exact (blk4 m c t e).trans (congrFun (V_main_arg4 m c) (ix1 e))

/-- An index of the output is in point t's block iff each coordinate is in the block's range on its axis. -/
theorem mem_blk (t : Fin cfg0.N) (i : S128x1024x384.Idx) :
    i ∈ ((cfg0.win 5).blk t).view.set ↔ ∀ a : Fin 3, win0_5.index t a * S1x1024x384.size a ≤ (i a).val
      ∧ (i a).val < win0_5.index t a * S1x1024x384.size a + S1x1024x384.size a := by
  show i ∈ ((View.whole main_v3).slice (win0_5.rect t)).set ↔ _
  rw [View.set_slice_whole, Rect.mem_set_unit]
  exact Iff.rfl

/-- Every index (t, n, e) of the output lies in point t's block, and every point writes its block back. -/
theorem cover (i : S128x1024x384.Idx) :
    ∃ t : Fin cfg0.N, (cfg0.win 5).flush t = true ∧ i ∈ ((cfg0.win 5).blk t).view.set := by
  have hi0 : (i 0).val < 128 := (i 0).isLt
  have hi1 : (i 1).val < 1024 := (i 1).isLt
  have hi2 : (i 2).val < 384 := (i 2).isLt
  have hlt : (i 0).val < cfg0.N := lt_of_lt_of_eq hi0 N_0.symm
  refine ⟨⟨(i 0).val, hlt⟩, flush0_5 _, ?_⟩
  rw [mem_blk]
  obtain ⟨-, -, -, -, -, -, -, -, -, e0, e1, e2⟩ := idx_facts ⟨(i 0).val, hlt⟩
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    have e0' : win0_5.index ⟨(i 0).val, hlt⟩ (0 : Fin 3) = (i 0).val := e0
    omega
  | ⟨1, _⟩ =>
    show win0_5.index ⟨(i 0).val, _⟩ (1 : Fin 3) * 1024 ≤ (i 1).val ∧ (i 1).val < win0_5.index ⟨(i 0).val, _⟩ (1 : Fin 3) * 1024 + 1024
    omega
  | ⟨2, _⟩ =>
    show win0_5.index ⟨(i 0).val, _⟩ (2 : Fin 3) * 384 ≤ (i 2).val ∧ (i 2).val < win0_5.index ⟨(i 0).val, _⟩ (2 : Fin 3) * 384 + 384
    omega

/-- The output array after the region. -/
theorem final (c : Dev nD) : (dats m 0 c).arrAt 5 cfg0.N = G3 m c :=
  (dats m 0 c).arrAt_eq_of_cover 5 (G3 m c) (fun t _ => flushed_eq m c t) (cover)

/-! ## The reshape after the region, and the run -/

/-- Row t = 4 g + p of the output is group (g, p). -/
theorem grp_pat (g : Fin 32) (p : Fin 4) (h : g.val * 4 + p.val < 128) :
    grp ⟨g.val * 4 + p.val, h⟩ = g ∧ pat ⟨g.val * 4 + p.val, h⟩ = p := by
  have hp := p.isLt
  exact ⟨Fin.ext (by show (g.val * 4 + p.val) / 4 = g.val; omega), Fin.ext (by show (g.val * 4 + p.val) % 4 = p.val; omega)⟩

/-- The program's result: the output array reshaped to [32, 4, 1024, 384] is G of the five argument arrays. -/
theorem tail_eq (c : Dev nD) :
    (Pipeline.afterTail₀ cfgs (dats m) 0 (V0 m) [hostOps1] c main_v4 : S32x4x1024x384.Idx → EReal)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = G3 m c := (Pipeline.withArrays_arr spec0 launch0.win.arr_inj c _ _ 5).trans (final m c)
  funext i
  obtain ⟨g, p, n, e, rfl⟩ : ∃ (g : Fin 32) (p : Fin 4) (n : Fin 1024) (e : Fin 384), i = ix4 g p n e :=
    ⟨i 0, i 1, i 2, i 3, eq_ix4 i⟩
  show shapeCast S32x4x1024x384 (Pipeline.withArrays (cfgs 0).spec c (V0 m c) (fun w => (dats m 0 c).arrAt w (cfgs 0).N) (Proc.devRef .tc main_v3))
    shapeCasts_S128x1024x384_S32x4x1024x384 (ix4 g p n e) = _
  rw [hw]
  have hg := g.isLt
  have hp := p.isLt
  have hlt : g.val * 4 + p.val < 128 := by omega
  refine (shapeCast_apply (G3 m c) _ (ix4 g p n e) (ix3 (⟨g.val * 4 + p.val, hlt⟩ : Fin 128) n e) ?_).trans ?_
  · show (S128x1024x384.rowMajor (ix3 (⟨g.val * 4 + p.val, hlt⟩ : Fin 128) n e)).val = (S32x4x1024x384.rowMajor (ix4 g p n e)).val
    rw [Shape.rowMajor_val_three, Shape.rowMajor_val_four]
    rfl
  · rw [G3_ix3, Cert.Spec.G_ix4, (grp_pat g p hlt).1, (grp_pat g p hlt).2]

/-- Every weakly fair execution of the program terminates with its result array at G of the argument arrays, and the
    arguments unchanged. -/
theorem run : θ_run defs (onTc (τ := τ) (main (F := Ideal))) ⟨m, fun _ => 0, ρ⟩ (fun r => ∀ c : Dev nD,
      r.2.mem ((c.tc : Thread nD τ).loc main_v4) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelValue

end
-- ==== Proof.lean ====
/-
  The certificate: a Pallas kernel for a linear-attention block against its jnp reference, over the extended reals.

  Both programs take activations x [32, 4, 1024, 384], a fused weight [384, 769] and bias [769], and a second weight
  [384, 384] and bias [384]. Each token's fused projection is cut into a query (column 0), a key (columns 1..384) and a
  value (columns 385..768). The reference weights the key by the softmax of the query over an axis of extent one, sums it
  over the 1024 positions of a group into a context vector, multiplies max(value, 0) by it, and projects with the second
  weight and bias. The kernel drops the query's column, works one group at a time on [1024, 384] blocks with two matrix
  products, and sums the key itself.

  The two agree because a softmax over one real entry is 1: exp(q - q) / exp(q - q). That needs q to be a real, which is
  where the precondition is used: finite activations, weight and bias give a real query (a finite sum of products of reals
  plus a real). Everything else is the same sums of the same terms: the kernel's column j of the sliced weight is the
  reference's column 1 + j, group t of the reshaped activations is batch t / 4 and patch t % 4, a matrix product into a
  zero accumulator is the dot product, and the changes of float format are the identity at the ideal values.

  The parts: Spec (the common function G of the five arrays), Finite (the precondition makes the first three arrays
  real), RefValue (the reference's last stage is G for real arrays), KernelPayload and KernelValue (the kernel program's
  result array is G), and here the five claims. The three frames are the generated ones (the reference's is its generated
  run with the result dropped); the idealization rewrote nothing, so preserves is trivial.
-/
import proofs.«170638_j78065325572222_1_alg».proof.Defs
import proofs.«170638_j78065325572222_1_alg».proof.Proof.Gen.Kernel
import proofs.«170638_j78065325572222_1_alg».proof.Proof.Gen.Kernel.Skeleton
import proofs.«170638_j78065325572222_1_alg».proof.Proof.Gen.Kernel.Launch
import proofs.«170638_j78065325572222_1_alg».proof.Proof.Gen.Kernel.Points
import proofs.«170638_j78065325572222_1_alg».proof.Proof.Gen.Kernel.Frame
import proofs.«170638_j78065325572222_1_alg».proof.Proof.Gen.KernelIdeal
import proofs.«170638_j78065325572222_1_alg».proof.Proof.Gen.KernelIdeal.Skeleton
import proofs.«170638_j78065325572222_1_alg».proof.Proof.Gen.KernelIdeal.Launch
import proofs.«170638_j78065325572222_1_alg».proof.Proof.Gen.KernelIdeal.Points
import proofs.«170638_j78065325572222_1_alg».proof.Proof.Gen.KernelIdeal.Frame
import proofs.«170638_j78065325572222_1_alg».proof.Proof.Gen.ReferenceIdeal
import proofs.«170638_j78065325572222_1_alg».proof.Proof.Gen.Pre_finite_inputs
import proofs.«170638_j78065325572222_1_alg».proof.Proof.Gen.ReferenceIdeal.Run
import proofs.«170638_j78065325572222_1_alg».proof.Proof.Gen.ReferenceIdeal.Read
import proofs.«170638_j78065325572222_1_alg».proof.Proof.Finite
import proofs.«170638_j78065325572222_1_alg».proof.Proof.RefValue
import proofs.«170638_j78065325572222_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at G of the argument arrays: the kernel's for any arrays, the
    reference's because the precondition makes the activations, the fused weight and the fused bias real. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelValue.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4⟩ := hagree c
  obtain ⟨r0, r1, r2⟩ := Cert.Finite.allReal_of_pre _ _ _ _ _ (hpre c)
  rw [(h c).1, Cert.ReferenceIdeal.Read.val_main_v26_eq, e0, e1, e2, e3, e4]
  exact Cert.RefValue.v26_eq_G _ _ _ _ _ r0 r1 r2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
